-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .f32) (main_arg1 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32768x1024 : Shape := ⟨2, ![32768, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x1024_S1024x1024_1_0 : S1024x1024.Transposes [1, 0] S1024x1024
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.LinearSpec.lean ====
/-
  The bias-free linear layer y = x · Wᵀ as ONE function of its two arrays, index by index: for x of 32768 rows of
  1024 features and a 1024 × 1024 weight W (one row per output feature), entry (r, c) of the result is the sum over
  the 1024 input features k of x[r, k] · W[c, k], a sum of products of extended reals.  Both programs compute this
  sum in this order of k, so no law of the extended reals beyond the definition of the sum is needed.
-/
import Idealize.ShloMosaic.PureOps.Ideal
import Idealize.ShloMosaic.Lib.ValueIdx

noncomputable section

namespace Cert.Linear

open Idealize.ShloMosaic Idealize.ShloMosaic.ValueIdx

/-- The activations' shape, 32768 rows of 1024 features; the result has the same shape. -/
abbrev Acts : Shape := ⟨2, ![32768, 1024]⟩
/-- The weight's shape: 1024 output features by 1024 input features. -/
abbrev Wts : Shape := ⟨2, ![1024, 1024]⟩

/-- Entry (r, c) of x · Wᵀ: the sum over k of x[r, k] · W[c, k]. -/
def xWt (x : FVec Ideal Acts .f32) (w : FVec Ideal Wts .f32) : FVec Ideal Acts .f32 :=
  fun i => ∑ k : Fin 1024, x (ix2 (i 0) k) * w (ix2 (i 1) k)

/-- The same entry with its two coordinates named. -/
theorem xWt_apply (x : FVec Ideal Acts .f32) (w : FVec Ideal Wts .f32) (r : Fin 32768) (c : Fin 1024) :
    xWt x w (ix2 r c) = ∑ k : Fin 1024, x (ix2 r k) * w (ix2 c k) := rfl

end Cert.Linear

end
-- ==== Proof.RefLinear.lean ====
/-
  The reference computes x · Wᵀ: it transposes W on the host and contracts x's feature axis against the transposed
  weight's first axis.  Read at an entry (r, c), the contraction is the sum over k of x[r, k] times the transposed
  weight at (k, c), and the transposed weight at (k, c) is W[c, k].
-/
import proofs.«400104_j20572893348682_3_alg».proof.Proof.Gen.ReferenceIdeal.Read
import proofs.«400104_j20572893348682_3_alg».proof.Proof.LinearSpec

noncomputable section

namespace Cert.ReferenceIdeal.RefValue

open Cert.ReferenceIdeal Cert.ReferenceIdeal.Gen Cert.ReferenceIdeal.Read
open Idealize.ShloMosaic Idealize.ShloMosaic.ValueIdx

/-- The reference's result, as a function of the two argument arrays, is x · Wᵀ entry by entry. -/
theorem result_eq (x0 : (⟨S32768x1024, .f32⟩ : BufTy).Contents (Elt Ideal)) (x1 : (⟨S1024x1024, .f32⟩ : BufTy).Contents (Elt Ideal)) :
    val_main_v1 (F := Ideal) x0 x1 = Cert.Linear.xWt x0 x1 := by
  funext i
  rw [val_main_v1_apply]
  unfold Cert.Linear.xWt
  refine Finset.sum_congr rfl fun k _ => ?_
  rw [val_main_v0_apply]
  -- the left factor sits at (r, k); the right factor, read through the transpose, at (c, k)
  have e0 : lidx_main_v1 i k = ix2 (i 0) k := funext fun a => Fin.ext (by
    match a with
    | ⟨0, _⟩ => rfl
    | ⟨1, _⟩ => rfl)
  have e1 : idx_main_v0 (ridx_main_v1 i k) = ix2 (i 1) k := funext fun a => Fin.ext (by
    match a with
    | ⟨0, _⟩ => rfl
    | ⟨1, _⟩ => rfl)
  rw [e0, e1]
  rfl

end Cert.ReferenceIdeal.RefValue

end
-- ==== Proof.KernelBody.lean ====
/-
  The kernel's body at one grid point: it loads a 1024 × 1024 block of x and the whole 1024 × 1024 transposed weight,
  and stores their matrix product, accumulated from zero.  Over the extended reals the narrowing of the block of x
  to the shorter float format is the identity, the weight's shape cast is the identity, and the product into a zero
  accumulator, read at entry (p, q), is the sum over the contracted axis k of the block's (p, k) entry times the
  weight block's (k, q) entry.
-/
import proofs.«400104_j20572893348682_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-! ## The product's operand indices, axis by axis

The left operand is read at the output's row and the contraction index, the right operand at the contraction index
and the output's column. -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The stored value at an entry -/

/-- Entry (p, q) of what the body stores: the sum over k of the x block at (p, k) times the weight block at (k, q). -/
theorem product_apply (v0 : Vec Ideal S1024x1024 .f32) (v2 : Vec Ideal S1024x1024 .bf16) (p q : Fin 1024) :
    k0_pay1 (F := Ideal) v0 v2 (ix2 p q) = ∑ k : Fin 1024, v0 (ix2 p k) * v2 (ix2 k q) := by
  unfold k0_pay1
  simp only [matmul]
  rw [shapeCast_self]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]
  rfl

end Cert.KernelIdeal.Body

end
-- ==== Proof.KernelArray.lean ====
/-
  From the blocks to the whole array.  The grid has 32 points; point t takes rows 1024·t … 1024·t + 1023 of x (all
  1024 features), the whole transposed weight (the same block at every point), and writes rows 1024·t … 1024·t + 1023
  of the result (all 1024 columns).  The array the weight window stages was written by the host before the launch:
  W transposed, then narrowed to the shorter float format, which over the extended reals changes nothing; so its
  (k, q) entry is W[q, k].  Entry (p, q) of the block point t writes is therefore the sum over k of
  x[1024·t + p, k] · W[q, k], which is entry (1024·t + p, q) of x · Wᵀ: every point writes back its block of that ONE
  array, the 32 row blocks cover all 32768 rows, and so the result array ends holding x · Wᵀ.
-/
import proofs.«400104_j20572893348682_3_alg».proof.Proof.Gen.KernelIdeal.Value
import proofs.«400104_j20572893348682_3_alg».proof.Proof.KernelBody
import proofs.«400104_j20572893348682_3_alg».proof.Proof.LinearSpec
import Idealize.ShloMosaic.Lib.ValueLayout
import Idealize.ShloMosaic.Lib.StableHlo.Run

set_option maxRecDepth 16384

noncomputable section

namespace Cert.KernelIdeal.LinearValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## The weight window's array -/

/-- What the region finds in the weight window's array: the host's transpose of W, narrowed. -/
theorem weight_array (c : Dev nD) :
    (V m c main_call0_v1 : S1024x1024.Idx → EReal)
      = truncf (F := Ideal) .bf16 (transpose S1024x1024 [1, 0] (m ((c : Thread nD τ).loc main_arg1)) transposes_S1024x1024_S1024x1024_1_0) bitsLt_bf16_f32 := by
  dsimp only [Gen.V, Gen.hostOps0]; after_results; rfl

/-- Its (k, q) entry is W[q, k]. -/
theorem weight_entry (c : Dev nD) (k q : Fin 1024) :
    (V m c main_call0_v1 : S1024x1024.Idx → EReal) (ix2 k q) = m ((c : Thread nD τ).loc main_arg1) (ix2 q k) := by
  rw [weight_array]
  exact transpose_ix2_apply _ _ k q

/-! ## The index maps over the grid -/

/-- Decided over the 32 points: x's window and the result's window sit at the same row block, point t's row block is
    t, every column block is 0, and the weight's window never moves. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every row block is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-! ## The input blocks at a point, entry by entry -/

/-- Entry (p, k) of x's block at point t is x at the row the result's block puts p on, feature k. -/
theorem x_block_entry (c : Dev nD) (t : Fin cfg0.N) (p k q : Fin 1024) :
    iblk m c 0 t (ix2 p k) = m ((c : Thread nD τ).loc main_arg0) (ix2 ((((cfg0.win 2).blk t).view.emb (ix2 p q)) 0) k) := by
  show V m c main_arg0 (((cfg0.win 0).blk t).view.emb (ix2 p k)) = _
  rw [V_main_arg0]
  refine congrArg _ ?_
  obtain ⟨e0, e1, e2, e3, e4, e5⟩ := idx_facts t
  funext a; apply Fin.ext
  match a with
  | ⟨0, _⟩ => show win0_0.index t (0 : Fin 2) * 1024 + 1 * p.val = win0_2.index t (0 : Fin 2) * 1024 + 1 * p.val; omega
  | ⟨1, _⟩ => show win0_0.index t (1 : Fin 2) * 1024 + 1 * k.val = k.val; omega

/-- Entry (k, q) of the weight's block at any point is W[q, k]. -/
theorem w_block_entry (c : Dev nD) (t : Fin cfg0.N) (k q : Fin 1024) :
    iblk m c 1 t (ix2 k q) = m ((c : Thread nD τ).loc main_arg1) (ix2 q k) := by
  show V m c main_call0_v1 (((cfg0.win 1).blk t).view.emb (ix2 k q)) = _
  refine Eq.trans (congrArg _ ?_) (weight_entry m c k q)
  obtain ⟨e0, e1, e2, e3, e4, e5⟩ := idx_facts t
  funext a; apply Fin.ext
  match a with
  | ⟨0, _⟩ => show win0_1.index t (0 : Fin 2) * 1024 + 1 * k.val = k.val; omega
  | ⟨1, _⟩ => show win0_1.index t (1 : Fin 2) * 1024 + 1 * q.val = q.val; omega

/-- The column a block entry (p, q) of the result lands on is q. -/
theorem out_col (t : Fin cfg0.N) (p q : Fin 1024) :
    ((((cfg0.win 2).blk t).view.emb (ix2 p q)) 1).val = q.val := by
  obtain ⟨e0, e1, e2, e3, e4, e5⟩ := idx_facts t
  show win0_2.index t (1 : Fin 2) * 1024 + 1 * q.val = q.val; omega

/-! ## What a point writes back -/

/-- Point t writes back its block of x · Wᵀ. -/
theorem flushed_eq (c : Dev nD) (t : Fin cfg0.N) :
    (dats m 0 c).flushed 2 t
      = ((cfg0.win 2).blk t).view.read (Elt Ideal) (Cert.Linear.xWt (m ((c : Thread nD τ).loc main_arg0)) (m ((c : Thread nD τ).loc main_arg1))) := by
  rw [flushed2]
  unfold out0_2
  rw [View.canon_unit_zero offsets_zero]
  simp only [View.ld_unit_zero (S := S1024x1024) offsets_zero]
  funext j
  obtain ⟨p, q, rfl⟩ : ∃ (p : Fin 1024) (q : Fin 1024), j = ix2 p q := ⟨j 0, j 1, eq_ix2 j⟩
  show k0_pay1 (F := Ideal) (iblk m c 0 t) (iblk m c 1 t) (ix2 p q)
    = Cert.Linear.xWt (m ((c : Thread nD τ).loc main_arg0)) (m ((c : Thread nD τ).loc main_arg1)) (((cfg0.win 2).blk t).view.emb (ix2 p q))
  refine (Cert.KernelIdeal.Body.product_apply (iblk m c 0 t) (iblk m c 1 t) p q).trans ?_
  unfold Cert.Linear.xWt
  refine Finset.sum_congr rfl fun k _ => ?_
  rw [x_block_entry m c t p k q, w_block_entry m c t k q]
  refine congrArg _ (congrArg _ ?_)
  funext a; apply Fin.ext
  match a with
  | ⟨0, _⟩ => exact (out_col t p q).symm
  | ⟨1, _⟩ => rfl

/-! ## The cover, and the array after the run -/

/-- An index of the result array is in point t's block iff each coordinate is in the block's range on its axis. -/
theorem mem_blk (t : Fin cfg0.N) (i : S32768x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result array is in the block of the point whose row block holds its row. -/
theorem cover (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is x · Wᵀ of the argument arrays. -/
theorem final (c : Dev nD) :
    (dats m 0 c).arrAt 2 cfg0.N = Cert.Linear.xWt (m ((c : Thread nD τ).loc main_arg0)) (m ((c : Thread nD τ).loc main_arg1)) :=
  (dats m 0 c).arrAt_eq_of_cover 2 _ (fun t _ => flushed_eq m c t) cover

/-- The kernel's run: it terminates with the result array at x · Wᵀ and the arguments unchanged. -/
theorem run : θ_run defs (onTc (τ := τ) (main (F := Ideal))) ⟨m, fun _ => 0, ρ⟩ fun r => ∀ c : Dev nD,
      r.2.mem ((c : Thread nD τ).loc main_v0) = Cert.Linear.xWt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.LinearValue

end
-- ==== Proof.lean ====
/-
  The kernel is a bias-free linear layer y = x · Wᵀ for x of 32768 rows of 1024 features and a 1024 × 1024 weight W.
  The host first transposes W and narrows it to the shorter float format; the kernel then walks 32 blocks of 1024
  rows of x, narrows each block the same way, and multiplies it with the whole transposed weight into a zero
  accumulator.  The reference transposes W and contracts x against it in one product.

  Over the extended reals a change of float format is the identity, so both programs put at entry (r, c) the sum
  over the 1024 features k of x[r, k] · W[c, k], with k in the same order: the two results are the same function of
  the arguments, with no use of finiteness.  That function is `Cert.Linear.xWt` (Proof/LinearSpec.lean); the reference
  is it by reading its two host operations at an index (Proof/RefLinear.lean); the kernel's body stores it block by
  block (Proof/KernelBody.lean: the product at an entry) and the 32 row blocks cover the array
  (Proof/KernelArray.lean).  The three frames are the generated runs; the idealization rewrote nothing, so there is
  nothing to preserve.
-/
import proofs.«400104_j20572893348682_3_alg».proof.Defs
import proofs.«400104_j20572893348682_3_alg».proof.Proof.Gen.Kernel
import proofs.«400104_j20572893348682_3_alg».proof.Proof.Gen.Kernel.Skeleton
import proofs.«400104_j20572893348682_3_alg».proof.Proof.Gen.Kernel.Launch
import proofs.«400104_j20572893348682_3_alg».proof.Proof.Gen.Kernel.Points
import proofs.«400104_j20572893348682_3_alg».proof.Proof.Gen.Kernel.Frame
import proofs.«400104_j20572893348682_3_alg».proof.Proof.Gen.KernelIdeal
import proofs.«400104_j20572893348682_3_alg».proof.Proof.Gen.KernelIdeal.Skeleton
import proofs.«400104_j20572893348682_3_alg».proof.Proof.Gen.KernelIdeal.Launch
import proofs.«400104_j20572893348682_3_alg».proof.Proof.Gen.KernelIdeal.Points
import proofs.«400104_j20572893348682_3_alg».proof.Proof.Gen.KernelIdeal.Frame
import proofs.«400104_j20572893348682_3_alg».proof.Proof.Gen.ReferenceIdeal
import proofs.«400104_j20572893348682_3_alg».proof.Proof.Gen.Pre_finite_inputs
import proofs.«400104_j20572893348682_3_alg».proof.Proof.Gen.KernelIdeal.Value
import proofs.«400104_j20572893348682_3_alg».proof.Proof.Gen.ReferenceIdeal.Run
import proofs.«400104_j20572893348682_3_alg».proof.Proof.Gen.ReferenceIdeal.Read
import proofs.«400104_j20572893348682_3_alg».proof.Proof.LinearSpec
import proofs.«400104_j20572893348682_3_alg».proof.Proof.RefLinear
import proofs.«400104_j20572893348682_3_alg».proof.Proof.KernelBody
import proofs.«400104_j20572893348682_3_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves x and W as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves x and W as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on x and W both programs end with x · Wᵀ in their result arrays. -/
theorem algebraic : Cert.algebraic_KernelIdeal_ReferenceIdeal := by
  intro m ρ m' ρ' _ hagree
  refine ⟨fun c => Cert.Linear.xWt (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.LinearValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
